-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S32x4096 : Shape := ⟨2, ![32, 4096]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel

variable [Facts]

def fn {F : FTy → Type} [FloatOps F] (main_arg0 : FVec F S32x4096x256 .f32) (main_arg1 : IVec S32x4096 32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  main_v3
-- ==== Kernel.lean ====
abbrev S32x4096x256 : Shape := ⟨3, ![32, 4096, 256]⟩
abbrev S32x4096 : Shape := ⟨2, ![32, 4096]⟩
abbrev S16x128 : Shape := ⟨2, ![16, 128]⟩
abbrev S4x4096x256 : Shape := ⟨3, ![4, 4096, 256]⟩
abbrev S8x128 : Shape := ⟨2, ![8, 128]⟩
abbrev S4x4096 : Shape := ⟨2, ![4, 4096]⟩
abbrev S1x4x4096 : Shape := ⟨3, ![1, 4, 4096]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S32x4096x256, .f32⟩
  | .hbm, ⟨1, _⟩ => ⟨S32x4096, .i32⟩
  | .hbm, ⟨2, _⟩ => ⟨S16x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S4x4096x256, .f32⟩
  | .local _ .vmem, ⟨1, _⟩ => ⟨S4x4096x256, .f32⟩
  | .local _ .vmem, ⟨2, _⟩ => ⟨S32x4096, .i32⟩
  | .local _ .vmem, ⟨3, _⟩ => ⟨S8x128, .f32⟩
  | .local _ .vmem, ⟨4, _⟩ => ⟨S8x128, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg0 : BitVec 32 := BitVec.ofNat 32 (i 0).val
  let c16_i32 : BitVec 32 := 16#32
  let v3 : BitVec 32 := Scalar.muli arg0 c16_i32
  let arg1 : BitVec 32 := BitVec.ofNat 32 (i 1).val
  let c4_i32 : BitVec 32 := 4#32
  let v4 : BitVec 32 := Scalar.muli arg1 c4_i32
  let v5 : BitVec 32 := Scalar.addi v3 v4
  v5
def k0_off1 (i : grid0.Coords) : Fin 2 → Nat :=
  let arg0 : BitVec 32 := BitVec.ofNat 32 (i 0).val
  let c16_i32 : BitVec 32 := 16#32
  let v3 : BitVec 32 := Scalar.muli arg0 c16_i32
  let arg1 : BitVec 32 := BitVec.ofNat 32 (i 1).val
  let c4_i32 : BitVec 32 := 4#32
  let v4 : BitVec 32 := Scalar.muli arg1 c4_i32
  let v5 : BitVec 32 := Scalar.addi v3 v4
  let v6 : BitVec 32 := v5
  let v8 : Index := Scalar.indexCast v6
  let c0_3 : Index := 0#32
  ![v8.toNat, 0]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S4x4096x256_S4x4096x256_0_0_0 : ∀ a, (![0, 0, 0] : Fin 3 → Nat) a + S4x4096x256.size a ≤ S4x4096x256.size a
  h_S4x4096x256 : 0 < S4x4096x256.numel
  h_S4x4096 : 0 < S4x4096.numel
  rotates_S4x4096x256_d1 : S4x4096x256.Rotates 1 none
  reduces_S4x4096x256_S4x4096 : S4x4096x256.Reduces [2] S4x4096
  rotates_S4x4096_d1 : S4x4096.Rotates 1 none
  iota_S4x4096_d1_w32 : S4x4096.Iotas .tc 32 [1]
  shapeCasts_S4x4096_S1x4x4096 : S4x4096.ShapeCasts S1x4x4096
  reduces_S1x4x4096_S1 : S1x4x4096.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  shapeCasts_S8x128_S8x128 : S8x128.ShapeCasts S8x128
  reducesTo_S16x128_S_d0_1 : S16x128.ReducesTo [0, 1] S_
  h_S_ : 0 < S_.numel
  hrank0 : 0 < grid0.rank
  k0_mult1_dvd : ∀ i : grid0.Coords, 4 ∣ (k0_mult1 i).toNat
  k0_off1_inb : ∀ i : grid0.Coords, ∀ a, (k0_off1 i) a + S4x4096.size a ≤ S32x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4096x256.size a ≤ S32x4096x256.size a
  hwx0_0 : ∀ i : grid0.Coords, EltTy.bits .f32 = 32 ∨ (Rect.block (s := S32x4096x256) S4x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S32x4096.size a
  hwx0_1 : ∀ i : grid0.Coords, EltTy.bits .i32 = 32 ∨ (Rect.block (s := S32x4096) S32x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S4x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096x256 : Shape := ⟨3, ![32, 4096, 256]⟩
abbrev S32x4096 : Shape := ⟨2, ![32, 4096]⟩
abbrev S32x4095 : Shape := ⟨2, ![32, 4095]⟩
abbrev S_ : Shape := ⟨0, ![]⟩
abbrev S32x4095x256 : Shape := ⟨3, ![32, 4095, 256]⟩

abbrev nBuf : Space → Nat
  | .hbm => 23
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S32x4096, .i32⟩
  | .hbm, ⟨2, _⟩ => ⟨S32x4095, .i32⟩
  | .hbm, ⟨3, _⟩ => ⟨S32x4095, .i32⟩
  | .hbm, ⟨4, _⟩ => ⟨S_, .i32⟩
  | .hbm, ⟨5, _⟩ => ⟨S32x4095, .i32⟩
  | .hbm, ⟨6, _⟩ => ⟨S32x4095, .i1⟩
  | .hbm, ⟨7, _⟩ => ⟨S32x4095, .i1⟩
  | .hbm, ⟨8, _⟩ => ⟨S32x4095, .i1⟩
  | .hbm, ⟨9, _⟩ => ⟨S32x4095x256, .f32⟩
  | .hbm, ⟨10, _⟩ => ⟨S32x4095x256, .f32⟩
  | .hbm, ⟨11, _⟩ => ⟨S32x4095x256, .f32⟩
  | .hbm, ⟨12, _⟩ => ⟨S32x4095x256, .f32⟩
  | .hbm, ⟨13, _⟩ => ⟨S_, .f32⟩
  | .hbm, ⟨14, _⟩ => ⟨S32x4095, .f32⟩
  | .hbm, ⟨15, _⟩ => ⟨S32x4095, .f32⟩
  | .hbm, ⟨16, _⟩ => ⟨S_, .f32⟩
  | .hbm, ⟨17, _⟩ => ⟨S32x4095, .f32⟩
  | .hbm, ⟨18, _⟩ => ⟨S32x4095, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  slices_S32x4096_S32x4095_0_0 : S32x4096.Slices ![0, 0] S32x4095
  slices_S32x4096_S32x4095_0_1 : S32x4096.Slices ![0, 1] S32x4095
  bcast_S_S32x4095 : S_.BroadcastsInDim S32x4095 (![] : Fin 0 → Fin S32x4095.rank)
  slices_S32x4096x256_S32x4095x256_0_0_0 : S32x4096x256.Slices ![0, 0, 0] S32x4095x256
  slices_S32x4096x256_S32x4095x256_0_1_0 : S32x4096x256.Slices ![0, 1, 0] S32x4095x256
  reducesTo_S32x4095x256_S32x4095_d2 : S32x4095x256.ReducesTo [2] S32x4095
  h_S_ : 0 < S_.numel
  reducesTo_S32x4095_S_d0_1 : S32x4095.ReducesTo [0, 1] S_

variable [Facts₀]

class Facts : Prop extends Facts₀ where

variable [Facts]
-- ==== Proof.PointTile.lean ====
/-
  What one grid point of the pair-distance kernel leaves in its output tile, and the tile carried across the grid.

  The grid is 2 × 4: point t = 4c + i handles the four batch rows [4t, 4t + 4) for core half c.  At every point the body
  forms ONE scalar — the sum over its four rows and all 4096 positions of the masked distance between a position's
  embedding and the next position's — and adds a tile that holds that scalar at entry (0, 0) and zero elsewhere into
  the output tile.  At the first point of each half (i = 0) the tile is first reset to zero; at the others it holds
  what the point before left.  So the carried tile is a running sum restarted at t = 0 and t = 4.
-/
import proofs.«419974_j33543694581774_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.PairSum

open Cert.KernelIdeal Cert.KernelIdeal.Gen

variable {F : FTy → Type} [FloatOps F]
variable (m : (ℓ : Loc nD τ sig) → Buf (Elt F) ℓ)

theorem zero_off2 : (![0, 0] : Fin 2 → Nat) = fun _ => 0 := funext fun a => by fin_cases a <;> rfl
theorem zero_off3 : (![0, 0, 0] : Fin 3 → Nat) = fun _ => 0 := funext fun a => by fin_cases a <;> rfl

/-- The four label rows a point reads out of the whole label array: rows [16c + 4i, 16c + 4i + 4), all positions. -/
abbrev labelRows (i : grid0.Coords) (lab : Vec F S32x4096 .i32) : Vec F S4x4096 .i32 :=
  View.ld lab (Rect.unit (s := S32x4096) (k0_off1 i) S4x4096.size (k0_off1_inb i))

/-- The tile a point adds: its scalar where row and lane are both zero, zero elsewhere. -/
def pointTile (emb : Vec F S4x4096x256 .f32) (lab4 : Vec F S4x4096 .i32) : FVec F S8x128 .f32 :=
  select k0_pay3 (k0_pay4 emb lab4) (k0_pay5 (F := F))

/-- The zero tile the first point of a half stores before accumulating. -/
abbrev zeroTile : FVec F S8x128 .f32 := k0_pay2 (F := F)

/-- A point that is not the first of its half adds its tile to what the tile held. -/
theorem out_later (c : Dev nD) (i : grid0.Coords) (a2 : Memref sig .tc .vmem S4x4096x256 .f32) (h2 : a2.IsWhole)
    (a3 : Memref sig .tc .vmem S32x4096 .i32) (h3 : a3.IsWhole) (a4 : Memref sig .tc .vmem S8x128 .f32) (h4 : a4.IsWhole)
    (hc : ¬cond0_0 i) (emb : Vec F S4x4096x256 .f32) (lab : Vec F S32x4096 .i32) (held : Vec F S8x128 .f32) :
    out0_B_2 c i a2 h2 a3 h3 a4 h4 hc emb lab held = addf held (pointTile emb (labelRows i lab)) := by
  unfold out0_B_2
  rw [View.read_writes_eq_canon _ _ _ (cover0_B_2 c i a2 h2 a3 h3 a4 h4 hc emb lab held)]
  unfold kernelRun0_B
  dsimp only
  sl_unfold_words
  rw [View.canon_unit_zero zero_off2]
  unfold k0_pay1 pointTile
  simp only [View.readAt_eq_ld, h2.read_unread, h3.read_unread, h4.read_unread, View.ld_unit_zero (S := S8x128) zero_off2,
    View.ld_unit_zero (S := S4x4096x256) zero_off3, shapeCast_self]
  rfl

/-- The first point of a half stores the zero tile, reads it back and adds its own tile. -/
theorem out_first (c : Dev nD) (i : grid0.Coords) (a2 : Memref sig .tc .vmem S4x4096x256 .f32) (h2 : a2.IsWhole)
    (a3 : Memref sig .tc .vmem S32x4096 .i32) (h3 : a3.IsWhole) (a4 : Memref sig .tc .vmem S8x128 .f32) (h4 : a4.IsWhole)
    (hc : cond0_0 i) (emb : Vec F S4x4096x256 .f32) (lab : Vec F S32x4096 .i32) :
    out0_A_2 c i a2 h2 a3 h3 a4 h4 hc emb lab = addf zeroTile (pointTile emb (labelRows i lab)) := by
  unfold out0_A_2
  rw [View.read_writes_eq_canon _ _ _ (cover0_A_2 c i a2 h2 a3 h3 a4 h4 hc emb lab)]
  unfold kernelRun0_A
  dsimp only
  sl_unfold_words
  rw [View.canon_cons_unit_zero (S := S8x128) zero_off2, View.readCov_unit_zero (S := S8x128) _ zero_off2]
  unfold k0_pay1 pointTile
  simp only [View.readAt_eq_ld, h2.read_unread, h3.read_unread, View.ld_unit_zero (S := S4x4096x256) zero_off3, shapeCast_self]
  rfl

/-- The tile point `t` adds, from the blocks the pipeline hands it. -/
abbrev tileAt (c : Dev nD) (t : Fin cfg0.N) : FVec F S8x128 .f32 :=
  pointTile (iblk m c 0 t) (labelRows (grid0.coords t) (iblk m c 1 t))

/-- The carried tile after point `n`: restarted from zero where `n` is a multiple of four, else one more tile added. -/
def carried (c : Dev nD) : (n : ℕ) → n < cfg0.N → Vec F S8x128 .f32
  | 0, h => addf zeroTile (tileAt m c ⟨0, h⟩)
  | n + 1, h =>
    if (n + 1) % 4 = 0 then addf zeroTile (tileAt m c ⟨n + 1, h⟩)
    else addf (carried c n (Nat.lt_of_succ_lt h)) (tileAt m c ⟨n + 1, h⟩)

/-- The contents the frame run tracks for the output's staging buffer are the carried tile, at every point. -/
theorem outsAt_eq_carried (c : Dev nD) : ∀ (n : ℕ) (h : n < cfg0.N), outsAt0 m c n h = carried m c n h
  | 0, h => (outsAt0_A m c ⟨0, h⟩ rfl).trans (out_first ..)
  | n + 1, h => by
    by_cases h0 : (n + 1) % 4 = 0
    · rw [outsAt0_A m c ⟨n + 1, h⟩ h0, out_first]
      simp only [carried, if_pos h0]
    · rw [outsAt0_B m c ⟨n + 1, h⟩ h0, out_later]
      simp only [carried, if_neg h0]
      show addf (outsAt0 m c n _) _ = addf (carried m c n _) _
      rw [outsAt_eq_carried c n]

end Cert.KernelIdeal.PairSum

end
-- ==== Proof.ResultArray.lean ====
/-
  The array the pair-distance kernel's region leaves, and the program's result.

  The output window's block index is the core half c = t / 4, and its staging buffer is written back at the last point of
  each half (t = 3 and t = 7).  So rows [8c, 8c + 8) of the 16 × 128 array end holding the carried tile after point
  4c + 3, and the two blocks tile the array.  The host lines after the region sum the whole array from zero and divide
  by 131072 = 32 · 4096.
-/
import proofs.«419974_j33543694581774_3_alg».proof.Proof.PointTile
import Idealize.ShloMosaic.Lib.StableHlo.Run
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.PairSum

open Cert.KernelIdeal Cert.KernelIdeal.Gen

variable {F : FTy → Type} [FloatOps F]
variable (m : (ℓ : Loc nD τ sig) → Buf (Elt F) ℓ) (ρ : Dev nD → PrngReg)

/-- The carried tile does not depend on how its point is spelt. -/
theorem carried_congr (c : Dev nD) {n n' : ℕ} (e : n = n') (h : n < cfg0.N) (h' : n' < cfg0.N) :
    carried m c n h = carried m c n' h' := by subst e; rfl

/-- The last point of the half that owns row `r` of the result array. -/
abbrev lastPoint (r : ℕ) : ℕ := 4 * (r / 8) + 3

theorem lastPoint_lt (i : S16x128.Idx) : lastPoint (i 0).val < cfg0.N := by
  have h : (i 0).val < 16 := (i 0).isLt
  show 4 * ((i 0).val / 8) + 3 < grid0.N
  rw [N_0]; omega

/-- The result array: row `r`, lane `l` holds entry (r mod 8, l) of the tile carried up to the last point of half r / 8. -/
def resultArr (c : Dev nD) : Vec F S16x128 .f32 := fun i =>
  carried m c (lastPoint (i 0).val) (lastPoint_lt i)
    (ValueIdx.ix2 (⟨(i 0).val % 8, Nat.mod_lt _ (by decide)⟩ : Fin 8) (⟨(i 1).val, (i 1).isLt⟩ : Fin 128))

/-- The output window's block index at a point: (t / 4, 0), decided over the grid. -/
theorem out_index : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)

/-- What a flushing point writes back is its block of the result array. -/
theorem flushed_eq (c : Dev nD) (t : Fin cfg0.N) (hf : (cfg0.win 2).flush t = true) :
    (dats m 0 c).flushed 2 t = ((cfg0.win 2).blk t).view.read (Elt F) (resultArr m c) := by
  have hN : t.val < 8 := lt_of_lt_of_eq t.isLt (show cfg0.N = 8 from N_0)
  have h3 : t.val % 4 = 3 := (flush0_2 t).mp hf
  obtain ⟨e0, e1⟩ := out_index t
  show (cfg0.win 2).cut (grid0.coords t) ((dats m 0 c).after 2 t) = _
  rw [after0_2, outsAt_eq_carried]
  funext j
  have hj0 : (j 0).val < 8 := (j 0).isLt
  have hj1 : (j 1).val < 128 := (j 1).isLt
  show carried m c t.val t.isLt j = resultArr m c (((cfg0.win 2).blk t).view.emb j)
  have r0 : ((((cfg0.win 2).blk t).view.emb j) 0).val = win0_2.index t (0 : Fin 2) * 8 + 1 * (j 0).val := rfl
  have r1 : ((((cfg0.win 2).blk t).view.emb j) 1).val = win0_2.index t (1 : Fin 2) * 128 + 1 * (j 1).val := rfl
  unfold resultArr
  rw [carried_congr m c (show lastPoint ((((cfg0.win 2).blk t).view.emb j) 0).val = t.val by rw [r0, e0]; show 4 * ((t.val / 4 * 8 + 1 * (j 0).val) / 8) + 3 = t.val; omega) _ t.isLt]
  refine congrArg (carried m c t.val t.isLt) ?_
  funext a
  apply Fin.ext
  match a with
  | ⟨0, _⟩ => show (j 0).val = ((((cfg0.win 2).blk t).view.emb j) 0).val % 8; rw [r0, e0]; omega
  | ⟨1, _⟩ => show (j 1).val = ((((cfg0.win 2).blk t).view.emb j) 1).val; rw [r1, e1]; omega

/-- An index of the array is in point `t`'s block iff each coordinate is in the block's range on its axis. -/
theorem mem_out_block (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- The two written-back blocks tile the array: row `r` is in the block of the last point of half r / 8. -/
theorem out_cover (i : S16x128.Idx) :
    ∃ t : Fin cfg0.N, (cfg0.win 2).flush t = true ∧ i ∈ ((cfg0.win 2).blk t).view.set := by
  have hi0 : (i 0).val < 16 := (i 0).isLt
  have hi1 : (i 1).val < 128 := (i 1).isLt
  refine ⟨⟨lastPoint (i 0).val, lastPoint_lt i⟩, (flush0_2 _).mpr (by show (4 * ((i 0).val / 8) + 3) % 4 = 3; omega), ?_⟩
  obtain ⟨e0, e1⟩ := out_index ⟨lastPoint (i 0).val, lastPoint_lt i⟩
  rw [mem_out_block]
  intro a
  match a with
  | ⟨0, _⟩ =>
    show win0_2.index ⟨lastPoint (i 0).val, lastPoint_lt i⟩ (0 : Fin 2) * 8 ≤ (i 0).val ∧ (i 0).val < win0_2.index ⟨lastPoint (i 0).val, lastPoint_lt i⟩ (0 : Fin 2) * 8 + 8
    rw [e0]; show (4 * ((i 0).val / 8) + 3) / 4 * 8 ≤ (i 0).val ∧ (i 0).val < (4 * ((i 0).val / 8) + 3) / 4 * 8 + 8; omega
  | ⟨1, _⟩ =>
    show win0_2.index ⟨lastPoint (i 0).val, lastPoint_lt i⟩ (1 : Fin 2) * 128 ≤ (i 1).val ∧ (i 1).val < win0_2.index ⟨lastPoint (i 0).val, lastPoint_lt i⟩ (1 : Fin 2) * 128 + 128
    rw [e1]; omega

/-- So the region's output array ends at the result array. -/
theorem out_final (c : Dev nD) : (dats m 0 c).arrAt 2 cfg0.N = resultArr m c :=
  (dats m 0 c).arrAt_eq_of_cover 2 (resultArr m c) (flushed_eq m c) (out_cover)

/-- The program's result as a function of the result array: its total from zero, over 131072. -/
def lossOf (A : Vec F S16x128 .f32) : FVec F S_ .f32 :=
  Host.divf (Host.reduceAdd A (constant S_ .f32 0x00000000#32) reducesTo_S16x128_S_d0_1 h_S_) (constant S_ .f32 0x48000000#32)

theorem main_v2_rest : main_v2 ∈ Pipeline.restRefs sig cfg0.spec := by decide

/-- What the host lines after the region leave in the result buffer. -/
theorem tail_eq (c : Dev nD) :
    Pipeline.afterTail₀ cfgs (dats m) 0 (V0 m) [hostOps1] c main_v2 = lossOf (resultArr m c) := by
  unfold Pipeline.afterTail₀
  show StableHlo.after hostOps1 _ (Proc.devRef .tc main_v2) = _
  after_results
  unfold lossOf
  rw [(Pipeline.withArrays_arr spec0 launch0.win.arr_inj c _ _ 2).trans (out_final m c)]

/-- The run, read: the result buffer at the loss of the result array, the arguments unchanged. -/
theorem run : θ_run defs (onTc (τ := τ) (main (F := F))) ⟨m, fun _ => 0, ρ⟩ fun r => ∀ c : Dev nD,
      r.2.mem ((c : Thread nD τ).loc main_v2) = lossOf (resultArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v2 main_v2_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.PairSum

end
-- ==== Proof.PairRow.lean ====
/-
  The pair-distance loss of ONE batch row, as a sum over positions on the extended reals.

  A row is 4096 positions, each with a 256-vector and an integer label.  Position s is paired with the next position
  s⁺ (position 4095 with position 0, around the end).  The pair counts when the label at s is non-zero, equals the label
  at s⁺, and s is not the last position; a counting pair contributes the Euclidean distance between the two vectors,
  the square root of the sum of squared coordinate differences.  Because the last position never counts, the row's
  total over all 4096 positions is the total over the 4095 genuine pairs (s, s + 1), with no position test at all.
-/
import Idealize.ShloMosaic.PureOps.Ideal
import Idealize.ShloMosaic.Lib.ValueIdx

noncomputable section

open scoped BigOperators

namespace Cert.PairRow

open Idealize.ShloMosaic Idealize.ShloMosaic.ValueIdx

/-- The next position, around the end. -/
def nextPos (s : Fin 4096) : Fin 4096 := ⟨(s.val + 1) % 4096, Nat.mod_lt _ (by decide)⟩

theorem nextPos_val_of_lt (s : Fin 4096) (h : s.val < 4095) : (nextPos s).val = s.val + 1 := by
  show (s.val + 1) % 4096 = s.val + 1
  exact Nat.mod_eq_of_lt (by omega)

/-- The squared distance between positions `s` and `s'` of a row. -/
def sqDist (xr : Fin 4096 → Fin 256 → EReal) (s s' : Fin 4096) : EReal :=
  ∑ d : Fin 256, (xr s d - xr s' d) * (xr s d - xr s' d)

/-- The label test of a pair, as the one-bit word both programs form: non-zero, and equal to the partner's. -/
def labelBit (lr : Fin 4096 → BitVec 32) (s s' : Fin 4096) : BitVec 1 :=
  IntOp.andi (IntOp.cmpi .ne (lr s) 0#32) (IntOp.cmpi .eq (lr s) (lr s'))

/-- The position test: `s` is before the last position, as a signed comparison of 32-bit words. -/
def posBit (s : Fin 4096) : BitVec 1 := IntOp.cmpi .slt (BitVec.ofNat 32 s.val) 4095#32

/-- What position `s` of a row contributes, over all 4096 positions. -/
def rowTerm (xr : Fin 4096 → Fin 256 → EReal) (lr : Fin 4096 → BitVec 32) (s : Fin 4096) : EReal :=
  Scalar.select (IntOp.andi (labelBit lr s (nextPos s)) (posBit s)) (Ideal.sqrt (sqDist xr s (nextPos s))) 0

/-- What the genuine pair (s, s + 1) contributes, with no position test. -/
def pairTerm (xr : Fin 4096 → Fin 256 → EReal) (lr : Fin 4096 → BitVec 32) (s : Fin 4095) : EReal :=
  Scalar.select (labelBit lr s.castSucc s.succ) (Ideal.sqrt (sqDist xr s.castSucc s.succ)) 0

/-- The position test is set exactly before the last position (decided over the 4096 positions). -/
theorem posBit_eq : ∀ s : Fin 4096, posBit s = if s.val < 4095 then 1#1 else 0#1 := by
  unfold posBit
  decide +kernel

theorem andi_one (b : BitVec 1) : IntOp.andi b 1#1 = b := by revert b; decide
theorem andi_zero (b : BitVec 1) : IntOp.andi b 0#1 = 0#1 := by revert b; decide

/-- Before the last position the partner is the successor and the position test drops out. -/
theorem rowTerm_castSucc (xr : Fin 4096 → Fin 256 → EReal) (lr : Fin 4096 → BitVec 32) (s : Fin 4095) :
    rowTerm xr lr s.castSucc = pairTerm xr lr s := by
  have hs : (s.castSucc : Fin 4096).val < 4095 := s.isLt
  have hn : nextPos s.castSucc = s.succ := Fin.ext (by rw [nextPos_val_of_lt _ hs]; rfl)
  unfold rowTerm pairTerm
  rw [posBit_eq, if_pos hs, andi_one, hn]

/-- The last position contributes nothing. -/
theorem rowTerm_last (xr : Fin 4096 → Fin 256 → EReal) (lr : Fin 4096 → BitVec 32) :
    rowTerm xr lr (Fin.last 4095) = 0 := by
  unfold rowTerm
  rw [posBit_eq, if_neg (by show ¬(4095 < 4095); omega), andi_zero]
  exact if_neg (by decide)

/-- So a row's total over all positions is its total over the genuine pairs. -/
theorem sum_rowTerm (xr : Fin 4096 → Fin 256 → EReal) (lr : Fin 4096 → BitVec 32) :
    ∑ s : Fin 4096, rowTerm xr lr s = ∑ s : Fin 4095, pairTerm xr lr s := by
  rw [Fin.sum_univ_castSucc, rowTerm_last, add_zero]
  exact Finset.sum_congr rfl fun s _ => rowTerm_castSucc xr lr s

/-! ## Two re-indexings of sums -/

/-- An index set with a leading unit axis is the product of the other two coordinate ranges … -/
def idxEquivUnit {a b : Nat} : (⟨3, ![1, a, b]⟩ : Shape).Idx ≃ Fin a × Fin b where
  toFun i := (i 1, i 2)
  invFun p := ix3 (0 : Fin 1) p.1 p.2
  left_inv i := funext fun d => match d with
    | ⟨0, _⟩ => Subsingleton.elim (α := Fin 1) _ _
    | ⟨1, _⟩ => rfl
    | ⟨2, _⟩ => rfl
  right_inv _ := rfl

/-- … so a sum over it is the double sum over them. -/
theorem sum_idxUnit {M : Type*} [AddCommMonoid M] {a b : Nat} (f : (⟨3, ![1, a, b]⟩ : Shape).Idx → M) :
    ∑ i, f i = ∑ p : Fin a, ∑ q : Fin b, f (ix3 (0 : Fin 1) p q) := by
  rw [← Equiv.sum_comp (idxEquivUnit (a := a) (b := b)).symm f, Fintype.sum_prod_type]
  rfl

/-- Thirty-two rows are eight groups of four: row 4t + r is row r of group t. -/
theorem sum_rows {M : Type*} [AddCommMonoid M] (f : Fin 32 → M) :
    ∑ b : Fin 32, f b = ∑ t : Fin 8, ∑ r : Fin 4, f ⟨4 * t.val + r.val, by have := t.isLt; have := r.isLt; omega⟩ := by
  rw [← Equiv.sum_comp (finProdFinEquiv (m := 8) (n := 4)) f, Fintype.sum_prod_type]
  refine Finset.sum_congr rfl fun t _ => Finset.sum_congr rfl fun r _ => congrArg f (Fin.ext ?_)
  show r.val + 4 * t.val = 4 * t.val + r.val
  omega

end Cert.PairRow

end
-- ==== Proof.PointScalar.lean ====
/-
  One grid point's scalar, at the ideal values: the total of the row terms of its four rows.

  The body rotates its block by 4095 positions along the position axis, so that entry s of the rotated block is entry
  s⁺ of the block; the squared differences are summed over the 256 coordinates, rooted, masked by the label and position
  tests and totalled over the 4 × 4096 entries.  Entry (r, s) of the masked array is exactly the row term of local row r
  at position s, so the point's scalar is the double sum of row terms.
-/
import proofs.«419974_j33543694581774_3_alg».proof.Proof.PointTile
import proofs.«419974_j33543694581774_3_alg».proof.Proof.PairRow
import Idealize.ShloMosaic.PureOps.Ideal.Laws
import Idealize.ShloMosaic.Lib.KernelVsHost
import Idealize.ShloMosaic.Lib.ValueLayout

set_option maxRecDepth 16384

noncomputable section

open scoped BigOperators
open Idealize.ShloMosaic Idealize.ShloMosaic.TcCoe Idealize.ShloMosaic.ValueIdx

namespace Cert.KernelIdeal.PairSum

open Cert.KernelIdeal Cert.KernelIdeal.Gen Cert.PairRow

variable {F : FTy → Type} [FloatOps F]

/-- The masked distances of a point's block: entry (r, s) is the distance of pair (s, s⁺) of local row r where the
    pair counts, zero elsewhere. -/
def maskedDist (emb : Vec F S4x4096x256 .f32) (lab4 : Vec F S4x4096 .i32) : FVec F S4x4096 .f32 :=
  select
    (andi (andi (cmpi .ne lab4 (broadcast S4x4096 0#32)) (cmpi .eq lab4 (dynamicRotate 1 4095#32 none lab4 rotates_S4x4096_d1)))
      (cmpi .slt (iota .tc S4x4096 32 [1] iota_S4x4096_d1_w32) (broadcast S4x4096 4095#32)))
    (sqrt (multiReduction .add [2] S4x4096
      (mulf (subf emb (dynamicRotate 1 4095#32 none emb rotates_S4x4096x256_d1)) (subf emb (dynamicRotate 1 4095#32 none emb rotates_S4x4096x256_d1)))
      0x00000000#32 reduces_S4x4096x256_S4x4096 (.inl rfl) rfl))
    (broadcast S4x4096 (Scalar.ofBits .f32 0x00000000#32))

/-- The point's scalar: the total of the masked distances, taken through a leading unit axis. -/
def pointScalar (emb : Vec F S4x4096x256 .f32) (lab4 : Vec F S4x4096 .i32) : F .f32 :=
  extractAt ![0, 0, 0]
    (shapeCast S1x1x1
      (multiReduction .add [1, 2] S1 (shapeCast S1x4x4096 (maskedDist emb lab4) shapeCasts_S4x4096_S1x4x4096)
        0x00000000#32 reduces_S1x4x4096_S1 (.inl rfl) rfl)
      shapeCasts_S1_S1x1x1)
    inpos_S1x1x1_p0_0_0

/-- The printed payload is the point's scalar at every entry. -/
theorem pay4_eq (emb : Vec F S4x4096x256 .f32) (lab4 : Vec F S4x4096 .i32) :
    k0_pay4 emb lab4 = broadcast S8x128 (pointScalar emb lab4) := rfl

/-- The rotation by 4095 of 4096 positions reads the next position, on the embeddings … -/
theorem rot_emb (emb : Vec Ideal S4x4096x256 .f32) (r : Fin 4) (s : Fin 4096) (d : Fin 256) :
    dynamicRotate 1 4095#32 none emb rotates_S4x4096x256_d1 (ix3 r s d) = emb (ix3 r (nextPos s) d) :=
  dynamicRotate_apply (1 : Fin 3) 4095#32 emb rotates_S4x4096x256_d1 _ _ (fun b => by
    match b with
    | ⟨0, _⟩ => rfl
    | ⟨1, _⟩ => show (s.val + 1) % 4096 = (s.val + 4096 - 4095 % 4096) % 4096; have := s.isLt; omega
    | ⟨2, _⟩ => rfl)

/-- … and on the labels. -/
theorem rot_lab (lab4 : Vec Ideal S4x4096 .i32) (r : Fin 4) (s : Fin 4096) :
    dynamicRotate 1 4095#32 none lab4 rotates_S4x4096_d1 (ix2 r s) = lab4 (ix2 r (nextPos s)) :=
  dynamicRotate_apply (1 : Fin 2) 4095#32 lab4 rotates_S4x4096_d1 _ _ (fun b => by
    match b with
    | ⟨0, _⟩ => rfl
    | ⟨1, _⟩ => show (s.val + 1) % 4096 = (s.val + 4096 - 4095 % 4096) % 4096; have := s.isLt; omega)

/-- Entry (r, s) of the masked distances is the row term of local row r at position s. -/
theorem maskedDist_apply (emb : Vec Ideal S4x4096x256 .f32) (lab4 : Vec Ideal S4x4096 .i32) (r : Fin 4) (s : Fin 4096) :
    maskedDist (F := Ideal) emb lab4 (ix2 r s) = rowTerm (fun s d => emb (ix3 r s d)) (fun s => lab4 (ix2 r s)) s := by
  have hlift : ∀ k : Fin 256, reduces_S4x4096x256_S4x4096.lift (ix2 r s) k = ix3 r s k := fun k =>
    funext fun a => Fin.ext (by match a with | ⟨0, _⟩ => rfl | ⟨1, _⟩ => rfl | ⟨2, _⟩ => rfl)
  have hsq : multiReduction (F := Ideal) .add [2] S4x4096
        (mulf (subf emb (dynamicRotate 1 4095#32 none emb rotates_S4x4096x256_d1)) (subf emb (dynamicRotate 1 4095#32 none emb rotates_S4x4096x256_d1)))
        0x00000000#32 reduces_S4x4096x256_S4x4096 (.inl rfl) rfl (ix2 r s)
      = ∑ d : Fin 256, (emb (ix3 r s d) - emb (ix3 r (nextPos s) d)) * (emb (ix3 r s d) - emb (ix3 r (nextPos s) d)) := by
    refine (Ideal.multiReduction_add_single _ _ reduces_S4x4096x256_S4x4096 _ _ (ix2 r s)).trans ?_
    refine Finset.sum_congr rfl fun (k : Fin 256) _ => ?_
    rw [hlift k]
    show (emb (ix3 r s k) - dynamicRotate 1 4095#32 none emb rotates_S4x4096x256_d1 (ix3 r s k))
        * (emb (ix3 r s k) - dynamicRotate 1 4095#32 none emb rotates_S4x4096x256_d1 (ix3 r s k)) = _
    rw [rot_emb emb r s k]
  unfold maskedDist rowTerm labelBit posBit sqDist
  show Scalar.select
      (IntOp.andi (IntOp.andi (IntOp.cmpi .ne (lab4 (ix2 r s)) 0#32)
          (IntOp.cmpi .eq (lab4 (ix2 r s)) (dynamicRotate 1 4095#32 none lab4 rotates_S4x4096_d1 (ix2 r s))))
        (IntOp.cmpi .slt (iota .tc S4x4096 32 [1] iota_S4x4096_d1_w32 (ix2 r s)) 4095#32))
      (Ideal.sqrt (multiReduction (F := Ideal) .add [2] S4x4096
        (mulf (subf emb (dynamicRotate 1 4095#32 none emb rotates_S4x4096x256_d1)) (subf emb (dynamicRotate 1 4095#32 none emb rotates_S4x4096x256_d1)))
        0x00000000#32 reduces_S4x4096x256_S4x4096 (.inl rfl) rfl (ix2 r s)))
      (Ideal.ofBits .f32 0x00000000#32) = _
  rw [hsq, rot_lab, iota_single_apply, Ideal.ofBits_zero_f32]

/-- The point's scalar is the total of its four rows' terms. -/
theorem pointScalar_eq (emb : Vec Ideal S4x4096x256 .f32) (lab4 : Vec Ideal S4x4096 .i32) :
    pointScalar (F := Ideal) emb lab4
      = ∑ r : Fin 4, ∑ s : Fin 4096, rowTerm (fun s d => emb (ix3 r s d)) (fun s => lab4 (ix2 r s)) s := by
  unfold pointScalar extractAt
  show multiReduction (F := Ideal) .add [1, 2] S1 (shapeCast S1x4x4096 (maskedDist emb lab4) shapeCasts_S4x4096_S1x4x4096)
      0x00000000#32 reduces_S1x4x4096_S1 (.inl rfl) rfl _ = _
  refine (Ideal.multiReduction_add_total _ _ reduces_S1x4x4096_S1 (by decide) _ _ _).trans ?_
  rw [sum_idxUnit]
  refine Finset.sum_congr rfl fun r _ => Finset.sum_congr rfl fun s _ => ?_
  rw [shapeCast_ab_1ab_apply, maskedDist_apply]

end Cert.KernelIdeal.PairSum

end
-- ==== Proof.KernelTotal.lean ====
/-
  The total of the kernel's result array, at the ideal values: the double sum of row terms over all 32 batch rows.

  A point's tile is its scalar at the corner entry and zero elsewhere, so the tile's total is the scalar.  Totals add,
  so the carried tile's total after point n is the sum of the scalars of the points of n's half up to n.  The result
  array is the two halves' last carried tiles one above the other, so its total is the sum of all eight scalars; and
  point t's four rows are batch rows 4t, …, 4t + 3, so the eight scalars together are the row totals of all 32 rows.
-/
import proofs.«419974_j33543694581774_3_alg».proof.Proof.ResultArray
import proofs.«419974_j33543694581774_3_alg».proof.Proof.PointScalar

set_option maxRecDepth 16384

noncomputable section

open scoped BigOperators
open Idealize.ShloMosaic Idealize.ShloMosaic.TcCoe Idealize.ShloMosaic.ValueIdx Idealize.SL.Sem

namespace Cert.KernelIdeal.PairSum

open Cert.KernelIdeal Cert.KernelIdeal.Gen Cert.PairRow

variable (m : (ℓ : Loc nD τ sig) → Buf (Elt Ideal) ℓ)

/-! ## A point's tile -/

/-- The corner test of the tile, decided over its 8 × 128 entries: set at row 0, lane 0 only. -/
theorem corner_decided : ∀ (p : Fin 8) (q : Fin 128),
    IntOp.andi (IntOp.cmpi .eq (BitVec.ofNat 32 p.val) 0#32) (IntOp.cmpi .eq (BitVec.ofNat 32 q.val) 0#32)
      = if p.val = 0 ∧ q.val = 0 then 1#1 else 0#1 := by
  decide +kernel

theorem corner_apply (p : Fin 8) (q : Fin 128) :
    k0_pay3 (ix2 p q) = if p.val = 0 ∧ q.val = 0 then 1#1 else 0#1 := by
  show IntOp.andi (IntOp.cmpi .eq (iota .tc S8x128 32 [0] iota_S8x128_d0_w32 (ix2 p q)) 0#32)
      (IntOp.cmpi .eq (iota .tc S8x128 32 [1] iota_S8x128_d1_w32 (ix2 p q)) 0#32) = _
  rw [iota_single_apply, iota_single_apply]
  exact corner_decided p q

/-- The total of a point's tile is the point's scalar: only the corner entry is not zero. -/
theorem sum_pointTile (emb : Vec Ideal S4x4096x256 .f32) (lab4 : Vec Ideal S4x4096 .i32) :
    ∑ y : S8x128.Idx, (pointTile (F := Ideal) emb lab4 y : EReal) = pointScalar (F := Ideal) emb lab4 := by
  rw [Finset.sum_eq_single_of_mem (ix2 (0 : Fin 8) (0 : Fin 128)) (Finset.mem_univ _)]
  · show Scalar.select (k0_pay3 (ix2 (0 : Fin 8) (0 : Fin 128))) (k0_pay4 (F := Ideal) emb lab4 (ix2 (0 : Fin 8) (0 : Fin 128)))
        (Ideal.ofBits .f32 0x00000000#32) = _
    rw [corner_apply, if_pos ⟨rfl, rfl⟩, select_one, pay4_eq]
    rfl
  · intro y _ hy
    obtain ⟨p, q, rfl⟩ : ∃ (p : Fin 8) (q : Fin 128), y = ix2 p q := ⟨y 0, y 1, eq_ix2 y⟩
    show Scalar.select (k0_pay3 (ix2 p q)) (k0_pay4 (F := Ideal) emb lab4 (ix2 p q)) (Ideal.ofBits .f32 0x00000000#32) = 0
    have hne : ¬(p.val = 0 ∧ q.val = 0) := fun h => hy (by
      obtain ⟨h0, h1⟩ := h
      obtain rfl : p = 0 := Fin.ext h0
      obtain rfl : q = 0 := Fin.ext h1
      rfl)
    rw [corner_apply, if_neg hne, select_zero, Ideal.ofBits_zero_f32]

/-! ## The carried tile -/

/-- The scalar of point `k` (zero past the grid's eight points). -/
def pointTotal (c : Dev nD) (k : ℕ) : EReal :=
  if h : k < cfg0.N then
    pointScalar (F := Ideal) (iblk m c 0 ⟨k, h⟩) (labelRows (grid0.coords ⟨k, h⟩) (iblk m c 1 ⟨k, h⟩))
  else 0

theorem sum_tileAt (c : Dev nD) (t : Fin cfg0.N) :
    ∑ y : S8x128.Idx, (tileAt m c t y : EReal) = pointTotal m c t.val := by
  unfold pointTotal
  rw [dif_pos t.isLt]
  exact sum_pointTile _ _

theorem sum_zeroTile : ∑ y : S8x128.Idx, (zeroTile (F := Ideal) y : EReal) = 0 :=
  Finset.sum_eq_zero fun y _ => Ideal.ofBits_zero_f32

/-- The total of the carried tile after point `n`: the scalars of the points of its half, from the half's first
    point n - n mod 4 up to n. -/
theorem sum_carried (c : Dev nD) : ∀ (n : ℕ) (h : n < cfg0.N),
    ∑ y : S8x128.Idx, (carried m c n h y : EReal) = ∑ k ∈ Finset.range (n % 4 + 1), pointTotal m c (n - n % 4 + k)
  | 0, h => by
    show ∑ y : S8x128.Idx, (zeroTile (F := Ideal) y + tileAt m c ⟨0, h⟩ y : EReal) = _
    rw [Finset.sum_add_distrib, sum_zeroTile, sum_tileAt, zero_add]
    simp
  | n + 1, h => by
    by_cases h0 : (n + 1) % 4 = 0
    · have e : carried m c (n + 1) h = addf zeroTile (tileAt m c ⟨n + 1, h⟩) := by simp only [carried, if_pos h0]
      rw [e]
      show ∑ y : S8x128.Idx, (zeroTile (F := Ideal) y + tileAt m c ⟨n + 1, h⟩ y : EReal) = _
      rw [Finset.sum_add_distrib, sum_zeroTile, sum_tileAt, zero_add, h0]
      simp
    · have e : carried m c (n + 1) h = addf (carried m c n (Nat.lt_of_succ_lt h)) (tileAt m c ⟨n + 1, h⟩) := by
        simp only [carried, if_neg h0]
      rw [e]
      show ∑ y : S8x128.Idx, (carried m c n (Nat.lt_of_succ_lt h) y + tileAt m c ⟨n + 1, h⟩ y : EReal) = _
      rw [Finset.sum_add_distrib, sum_carried c n, sum_tileAt]
      have e1 : (n + 1) % 4 + 1 = (n % 4 + 1) + 1 := by omega
      have e2 : n + 1 - (n + 1) % 4 = n - n % 4 := by omega
      have e3 : n - n % 4 + (n % 4 + 1) = n + 1 := by omega
      rw [e1, e2, Finset.sum_range_succ (fun k => pointTotal m c (n - n % 4 + k)) (n % 4 + 1), e3]

/-! ## The result array's total -/

theorem half_lt (h : Fin 2) : 4 * h.val + 3 < cfg0.N := by
  have := h.isLt
  show 4 * h.val + 3 < grid0.N
  rw [N_0]; omega

/-- Sixteen rows are two halves of eight: row 8h + p is row p of half h. -/
theorem sum_halves {M : Type*} [AddCommMonoid M] (f : Fin 16 → M) :
    ∑ r : Fin 16, f r = ∑ h : Fin 2, ∑ p : Fin 8, f ⟨8 * h.val + p.val, by have := h.isLt; have := p.isLt; omega⟩ := by
  rw [← Equiv.sum_comp (finProdFinEquiv (m := 2) (n := 8)) f, Fintype.sum_prod_type]
  refine Finset.sum_congr rfl fun h _ => Finset.sum_congr rfl fun p _ => congrArg f (Fin.ext ?_)
  show p.val + 8 * h.val = 8 * h.val + p.val
  omega

/-- Row 8h + p of the result array is row p of the tile carried to the last point of half h. -/
theorem resultArr_apply (c : Dev nD) (h : Fin 2) (p : Fin 8) (l : Fin 128) :
    resultArr m c (ix2 (⟨8 * h.val + p.val, by have := h.isLt; have := p.isLt; omega⟩ : Fin 16) l)
      = carried m c (4 * h.val + 3) (half_lt h) (ix2 p l) := by
  have hp := p.isLt
  unfold resultArr
  show carried m c (lastPoint (8 * h.val + p.val)) _
      (ix2 (⟨(8 * h.val + p.val) % 8, Nat.mod_lt _ (by decide)⟩ : Fin 8) (⟨l.val, l.isLt⟩ : Fin 128)) = _
  rw [carried_congr m c (show lastPoint (8 * h.val + p.val) = 4 * h.val + 3 by
    show 4 * ((8 * h.val + p.val) / 8) + 3 = 4 * h.val + 3; omega) _ (half_lt h)]
  refine congrArg (carried m c (4 * h.val + 3) (half_lt h)) ?_
  funext a
  apply Fin.ext
  match a with
  | ⟨0, _⟩ => show (8 * h.val + p.val) % 8 = p.val; omega
  | ⟨1, _⟩ => rfl

/-- The total of the result array is the sum of the eight points' scalars. -/
theorem sum_resultArr (c : Dev nD) :
    ∑ i : S16x128.Idx, (resultArr m c i : EReal) = ∑ k ∈ Finset.range 8, pointTotal m c k := by
  have e : ∀ (n : ℕ) (hn : n < cfg0.N), ∑ p : Fin 8, ∑ l : Fin 128, (carried m c n hn (ix2 p l) : EReal)
      = ∑ k ∈ Finset.range (n % 4 + 1), pointTotal m c (n - n % 4 + k) := fun n hn =>
    (sum_idx2 (fun y : S8x128.Idx => (carried m c n hn y : EReal))).symm.trans (sum_carried m c n hn)
  rw [sum_idx2, sum_halves, Fin.sum_univ_two]
  simp only [resultArr_apply]
  rw [e, e]
  show ∑ k ∈ Finset.range 4, pointTotal m c (0 + k) + ∑ k ∈ Finset.range 4, pointTotal m c (4 + k)
      = ∑ k ∈ Finset.range (4 + 4), pointTotal m c k
  rw [Finset.sum_range_add]
  simp only [Nat.zero_add]

/-! ## A point's rows are four batch rows -/

/-- The input windows' block indices and the label load's offset at a point, decided over the grid: the embedding
    block is block t along the batch axis, the label window is the whole array, and the load starts at row 4t. -/
theorem in_index : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ k0_off1 (grid0.coords t) (0 : Fin 2) = 4 * t.val ∧ k0_off1 (grid0.coords t) (1 : Fin 2) = 0 :=
  (by decide +kernel : ∀ t : Fin grid0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ k0_off1 (grid0.coords t) (0 : Fin 2) = 4 * t.val ∧ k0_off1 (grid0.coords t) (1 : Fin 2) = 0)

theorem row_lt (t : Fin cfg0.N) (r : Fin 4) : 4 * t.val + r.val < 32 := by
  have ht : t.val < 8 := lt_of_lt_of_eq t.isLt (show cfg0.N = 8 from N_0)
  have := r.isLt
  omega

/-- The blocks the pipeline hands point `t`, at their literal types. -/
abbrev embBlock (c : Dev nD) (t : Fin cfg0.N) : Vec Ideal S4x4096x256 .f32 := iblk m c 0 t
abbrev labBlock (c : Dev nD) (t : Fin cfg0.N) : Vec Ideal S32x4096 .i32 := iblk m c 1 t

/-- Local row r of point t's embedding block is batch row 4t + r of the embeddings. -/
theorem embBlock_apply (c : Dev nD) (t : Fin cfg0.N) (r : Fin 4) (s : Fin 4096) (d : Fin 256) :
    embBlock m c t (ix3 r s d) = m ((c : Thread nD τ).loc main_arg0) (ix3 (⟨4 * t.val + r.val, row_lt t r⟩ : Fin 32) s d) := by
  obtain ⟨e0, e1, e2, -⟩ := in_index t
  show V m c main_arg0 (((cfg0.win 0).blk t).view.emb (ix3 r s d)) = _
  refine congrArg (m ((c : Thread nD τ).loc main_arg0)) (funext fun a => Fin.ext ?_)
  match a with
  | ⟨0, _⟩ => show win0_0.index t (0 : Fin 3) * 4 + 1 * r.val = 4 * t.val + r.val; rw [e0]; omega
  | ⟨1, _⟩ => show win0_0.index t (1 : Fin 3) * 4096 + 1 * s.val = s.val; rw [e1]; omega
  | ⟨2, _⟩ => show win0_0.index t (2 : Fin 3) * 256 + 1 * d.val = d.val; rw [e2]; omega

/-- Local row r of the label rows point t loads is batch row 4t + r of the labels. -/
theorem labelRows_apply (c : Dev nD) (t : Fin cfg0.N) (r : Fin 4) (s : Fin 4096) :
    labelRows (grid0.coords t) (labBlock m c t) (ix2 r s)
      = m ((c : Thread nD τ).loc main_arg1) (ix2 (⟨4 * t.val + r.val, row_lt t r⟩ : Fin 32) s) := by
  obtain ⟨-, -, -, e3, e4, e5, e6⟩ := in_index t
  show V m c main_arg1 (((cfg0.win 1).blk t).view.emb
      ((Rect.unit (s := S32x4096) (k0_off1 (grid0.coords t)) S4x4096.size (k0_off1_inb (grid0.coords t))).idx (ix2 r s))) = _
  refine congrArg (m ((c : Thread nD τ).loc main_arg1)) (funext fun a => Fin.ext ?_)
  match a with
  | ⟨0, _⟩ =>
    show win0_1.index t (0 : Fin 2) * 32 + 1 * (k0_off1 (grid0.coords t) (0 : Fin 2) + 1 * r.val) = 4 * t.val + r.val
    rw [e3, e5]; omega
  | ⟨1, _⟩ =>
    show win0_1.index t (1 : Fin 2) * 4096 + 1 * (k0_off1 (grid0.coords t) (1 : Fin 2) + 1 * s.val) = s.val
    rw [e4, e6]; omega

/-- The total of batch row `b`: its row terms over all positions. -/
def rowTotal (c : Dev nD) (b : Fin 32) : EReal :=
  ∑ s : Fin 4096, rowTerm (fun s d => m ((c : Thread nD τ).loc main_arg0) (ix3 b s d))
    (fun s => m ((c : Thread nD τ).loc main_arg1) (ix2 b s)) s

/-- Point t's scalar is the total of batch rows 4t, …, 4t + 3. -/
theorem pointTotal_eq (c : Dev nD) (t : Fin 8) :
    pointTotal m c t.val = ∑ r : Fin 4, rowTotal m c ⟨4 * t.val + r.val, by have := t.isLt; have := r.isLt; omega⟩ := by
  have ht : t.val < cfg0.N := lt_of_lt_of_eq t.isLt (show (8 : ℕ) = cfg0.N from N_0.symm)
  unfold pointTotal rowTotal
  rw [dif_pos ht]
  refine (pointScalar_eq (embBlock m c ⟨t.val, ht⟩) (labelRows (grid0.coords ⟨t.val, ht⟩) (labBlock m c ⟨t.val, ht⟩))).trans ?_
  refine Finset.sum_congr rfl fun r _ => Finset.sum_congr rfl fun s _ => ?_
  have ea : (fun (s : Fin 4096) (d : Fin 256) => embBlock m c ⟨t.val, ht⟩ (ix3 r s d))
      = fun s d => m ((c : Thread nD τ).loc main_arg0) (ix3 (⟨4 * t.val + r.val, row_lt ⟨t.val, ht⟩ r⟩ : Fin 32) s d) :=
    funext fun s' => funext fun d => embBlock_apply m c ⟨t.val, ht⟩ r s' d
  have eb : (fun (s : Fin 4096) => labelRows (grid0.coords ⟨t.val, ht⟩) (labBlock m c ⟨t.val, ht⟩) (ix2 r s))
      = fun s => m ((c : Thread nD τ).loc main_arg1) (ix2 (⟨4 * t.val + r.val, row_lt ⟨t.val, ht⟩ r⟩ : Fin 32) s) :=
    funext fun s' => labelRows_apply m c ⟨t.val, ht⟩ r s'
  rw [ea, eb]

/-- THE KERNEL'S TOTAL: the result array sums to the row totals of all 32 batch rows. -/
theorem kernel_total (c : Dev nD) : ∑ i : S16x128.Idx, (resultArr m c i : EReal) = ∑ b : Fin 32, rowTotal m c b := by
  rw [sum_resultArr, Finset.sum_range, sum_rows]
  exact Finset.sum_congr rfl fun t _ => pointTotal_eq m c t

end Cert.KernelIdeal.PairSum

end
-- ==== Proof.RefTotal.lean ====
/-
  The reference's masked distances, entry by entry, and their total.

  The reference slices positions [0, 4095) and [1, 4096) of both arrays, so entry (b, s) of its masked array compares
  position s of batch row b with position s + 1: it is the pair term of row b at s, with the reference's own leading
  zero of the coordinate sum absorbed.  Its total over the 32 × 4095 entries is the double sum of pair terms.
-/
import proofs.«419974_j33543694581774_3_alg».proof.Proof.Gen.ReferenceIdeal.Read
import proofs.«419974_j33543694581774_3_alg».proof.Proof.PairRow
import Idealize.ShloMosaic.PureOps.Ideal.Laws

noncomputable section

open scoped BigOperators
open Idealize.ShloMosaic Idealize.ShloMosaic.TcCoe Idealize.ShloMosaic.ValueIdx

namespace Cert.ReferenceIdeal.PairSum

open Cert.ReferenceIdeal Cert.ReferenceIdeal.Read Cert.PairRow

/-- Entry (b, s) of the reference's masked distances is the pair term of row b at s. -/
theorem masked_apply (x : S32x4096x256.Idx → EReal) (lab : S32x4096.Idx → BitVec 32) (b : Fin 32) (s : Fin 4095) :
    val_main_v13 (F := Ideal) x lab (ix2 b s) = pairTerm (fun s d => x (ix3 b s d)) (fun s => lab (ix2 b s)) s := by
  have e0 : idx_main_v0 (ix2 b s) = ix2 b s.castSucc :=
    funext fun a => Fin.ext (by match a with | ⟨0, _⟩ => rfl | ⟨1, _⟩ => rfl)
  have e1 : idx_main_v1 (ix2 b s) = ix2 b s.succ :=
    funext fun a => Fin.ext (by match a with | ⟨0, _⟩ => rfl | ⟨1, _⟩ => (show 1 + s.val = s.val + 1; omega))
  have e6 : ∀ k : Fin 256, idx_main_v6 (idx_main_v10 (ix2 b s) k) = ix3 b s.castSucc k := fun k =>
    funext fun a => Fin.ext (by match a with | ⟨0, _⟩ => rfl | ⟨1, _⟩ => rfl | ⟨2, _⟩ => rfl)
  have e7 : ∀ k : Fin 256, idx_main_v7 (idx_main_v10 (ix2 b s) k) = ix3 b s.succ k := fun k =>
    funext fun a => Fin.ext (by match a with | ⟨0, _⟩ => rfl | ⟨1, _⟩ => (show 1 + s.val = s.val + 1; omega) | ⟨2, _⟩ => rfl)
  rw [val_main_v13_apply, val_main_v5_apply, val_main_v3_apply, val_main_v4_apply, val_main_v0_apply, val_main_v1_apply,
    val_main_v2_apply, val_main_c_apply, val_main_v11_apply, val_main_v10_apply, val_main_v12_apply, val_main_cst_0_apply,
    val_main_cst_apply, e0, e1]
  simp only [val_main_v9_apply, val_main_v8_apply, val_main_v6_apply, val_main_v7_apply, e6, e7, Ideal.hostUnary_sqrt_def,
    Ideal.mulf_def, Ideal.subf_def, Ideal.ofBits_def, Ideal.ofBits_zero_f32, zero_add]
  rfl

/-- The total of the reference's masked distances is the double sum of pair terms over rows and pairs. -/
theorem masked_total (x : S32x4096x256.Idx → EReal) (lab : S32x4096.Idx → BitVec 32) :
    ∑ j : S32x4095.Idx, val_main_v13 (F := Ideal) x lab j
      = ∑ b : Fin 32, ∑ s : Fin 4095, pairTerm (fun s d => x (ix3 b s d)) (fun s => lab (ix2 b s)) s := by
  rw [sum_idx2]
  exact Finset.sum_congr rfl fun b _ => Finset.sum_congr rfl fun s _ => masked_apply x lab b s

end Cert.ReferenceIdeal.PairSum

end
-- ==== Proof.Loss.lean ====
/-
  Both programs' results, at the ideal values, as one function of the argument arrays.

  Each program ends by summing an array from zero and dividing by 131072.  The kernel sums its 16 × 128 result array,
  whose total is the row totals of all 32 batch rows; the reference sums its 32 × 4095 masked distances, whose total is
  the pair terms of all rows, and a row's pair terms total its row terms because the last position contributes
  nothing.  So both results are the same quotient of the same sum.
-/
import proofs.«419974_j33543694581774_3_alg».proof.Proof.KernelTotal
import proofs.«419974_j33543694581774_3_alg».proof.Proof.RefTotal

noncomputable section

open scoped BigOperators
open Idealize.ShloMosaic Idealize.ShloMosaic.TcCoe Idealize.ShloMosaic.ValueIdx Idealize.SL.Sem

namespace Cert.PairRow

/-- The loss as a function of the two argument arrays: the row terms of all rows and positions, summed from zero,
    over 131072 (the divisor kept as the word both programs print). -/
def lossVal (x : (⟨3, ![32, 4096, 256]⟩ : Shape).Idx → EReal) (lab : (⟨2, ![32, 4096]⟩ : Shape).Idx → BitVec 32) :
    (⟨0, ![]⟩ : Shape).Idx → EReal := fun _ =>
  FloatOps.hostDivf (F := Ideal) (φ := .f32)
    (Ideal.ofBits .f32 0x00000000#32
      + ∑ b : Fin 32, ∑ s : Fin 4096, rowTerm (fun s d => x (ix3 b s d)) (fun s => lab (ix2 b s)) s)
    (Ideal.ofBits .f32 0x48000000#32)

end Cert.PairRow

namespace Cert.KernelIdeal.PairSum

open Cert.KernelIdeal Cert.KernelIdeal.Gen Cert.PairRow

/-- The kernel's result is the loss of its argument arrays. -/
theorem kernel_loss (m : (ℓ : Loc nD τ sig) → Buf (Elt Ideal) ℓ) (c : Dev nD) :
    lossOf (resultArr m c) = lossVal (m ((c : Thread nD τ).loc main_arg0)) (m ((c : Thread nD τ).loc main_arg1)) := by
  funext i
  have hsum : Host.reduceAdd (F := Ideal) (resultArr m c) (constant S_ .f32 0x00000000#32) reducesTo_S16x128_S_d0_1 h_S_ i
      = Ideal.ofBits .f32 0x00000000#32 + ∑ j : S16x128.Idx, (resultArr m c j : EReal) := by
    simp only [Host.reduceAdd, Ideal.hostReduceAdd_def]
    exact Ideal.hostReduceAdd_total reducesTo_S16x128_S_d0_1 (fun b => b.elim0) _ _ i
  show FloatOps.hostDivf (Host.reduceAdd (F := Ideal) (resultArr m c) (constant S_ .f32 0x00000000#32) reducesTo_S16x128_S_d0_1 h_S_ i)
      (Ideal.ofBits .f32 0x48000000#32) = _
  rw [hsum, kernel_total]
  rfl

end Cert.KernelIdeal.PairSum

namespace Cert.ReferenceIdeal.PairSum

open Cert.ReferenceIdeal Cert.ReferenceIdeal.Read Cert.PairRow

/-- The reference's result is the loss of its argument arrays. -/
theorem reference_loss (x : S32x4096x256.Idx → EReal) (lab : S32x4096.Idx → BitVec 32) :
    val_main_v15 (F := Ideal) x lab = lossVal x lab := by
  funext i
  rw [val_main_v15_apply, val_main_v14_apply, val_main_cst_1_apply, val_main_cst_2_apply, masked_total]
  unfold lossVal
  simp only [← sum_rowTerm]
  rfl

end Cert.ReferenceIdeal.PairSum

end
-- ==== Proof.lean ====
/-
  The pair-distance loss: a two-core Pallas kernel against its jnp reference, over the extended reals.

  For embeddings x[32, 4096, 256] and integer labels lab[32, 4096] both programs compute

      ( 0 + Σ_b Σ_s [ lab[b,s] ≠ 0 ∧ lab[b,s] = lab[b,s+1] ] · √( Σ_d (x[b,s,d] − x[b,s+1,d])² ) ) / 131072,

  the sum over the 4095 pairs of neighbouring positions of each of the 32 batch rows.

  The reference slices positions [0, 4095) and [1, 4096) and sums the 32 × 4095 masked distances.  The kernel walks a
  2 × 4 grid, four batch rows a point; it pairs each position with the next one AROUND THE END (a rotation by 4095 of
  4096 positions), masks the wrap-around pair off by a position test, and adds each point's total into entry (0, 0) of
  a per-core 8 × 128 tile that is reset at the first point of each core's half; the host then sums the 16 × 128 array.
  The two are equal because the masked-off last position contributes zero, so a row's total over 4096 positions is its
  total over the 4095 genuine pairs; everything else is a regrouping of one finite sum, which the extended reals allow
  without any finiteness (addition there is commutative and associative), so the precondition is never opened.

  The kernel's idealization rewrote nothing, so `preserves` is trivial; the three frames are the generated ones (the
  reference's is its generated run with the result dropped).
-/
import proofs.«419974_j33543694581774_3_alg».proof.Defs
import proofs.«419974_j33543694581774_3_alg».proof.Proof.Gen.Kernel
import proofs.«419974_j33543694581774_3_alg».proof.Proof.Gen.Kernel.Skeleton
import proofs.«419974_j33543694581774_3_alg».proof.Proof.Gen.Kernel.Launch
import proofs.«419974_j33543694581774_3_alg».proof.Proof.Gen.Kernel.Points
import proofs.«419974_j33543694581774_3_alg».proof.Proof.Gen.Kernel.Frame
import proofs.«419974_j33543694581774_3_alg».proof.Proof.Gen.KernelIdeal
import proofs.«419974_j33543694581774_3_alg».proof.Proof.Gen.KernelIdeal.Skeleton
import proofs.«419974_j33543694581774_3_alg».proof.Proof.Gen.KernelIdeal.Launch
import proofs.«419974_j33543694581774_3_alg».proof.Proof.Gen.KernelIdeal.Points
import proofs.«419974_j33543694581774_3_alg».proof.Proof.Gen.KernelIdeal.Frame
import proofs.«419974_j33543694581774_3_alg».proof.Proof.Gen.ReferenceIdeal
import proofs.«419974_j33543694581774_3_alg».proof.Proof.Gen.Pre_finite_inputs
import proofs.«419974_j33543694581774_3_alg».proof.Proof.Gen.ReferenceIdeal.Run
import proofs.«419974_j33543694581774_3_alg».proof.Proof.Gen.ReferenceIdeal.Read
import proofs.«419974_j33543694581774_3_alg».proof.Proof.Loss
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference has no kernel: its frame is its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the two arguments, the kernel's result buffer and the reference's both end at the loss
    of those arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.PairSum.lossOf (Cert.KernelIdeal.PairSum.resultArr m c),
    Cert.KernelIdeal.PairSum.run m ρ, ?_⟩
  refine (θ_run Cert.ReferenceIdeal.defs _ _).mono (fun _ h c => ⟨(h c).1.trans ?_, (h c).2.1, (h c).2.2⟩)
    (Cert.ReferenceIdeal.Value.run (F := Ideal) m' ρ')
  rw [(hagree c).1, (hagree c).2, Cert.ReferenceIdeal.Read.val_main_v15_eq, Cert.ReferenceIdeal.PairSum.reference_loss]
  exact (Cert.KernelIdeal.PairSum.kernel_loss m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
